-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 90
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.HostStages.lean ====
/-
  The host stretches of the kernel's program, read against the reference's stages.

  Between its four regions the kernel's program runs the same host operations as the reference: the edge lists with
  self loops appended (rows, columns, weights), the degree by a scatter-add of the weights, its inverse square root
  where the degree is positive, the edge normalisation as a product of two gathers and the weight, and per layer the
  aggregation (gather the transformed rows, scale by the normalisation, scatter-add onto the target nodes). Each lemma
  here takes ONE stretch over an arbitrary state of the buffers: if the buffers the stretch reads hold the reference's
  values of them, the buffer it writes holds the reference's value of it. Nothing is computed: both sides are the same
  operations applied to the same operands.
-/
import proofs.«115703_j90512140796730_1_alg».proof.Proof.Gen.KernelIdeal.Launch
import proofs.«115703_j90512140796730_1_alg».proof.Proof.Gen.ReferenceIdeal.Read
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (Wv : Valuation τ sig (Elt Ideal))
variable (x0 : Vec Ideal S100000x64 .f32) (x1 : Vec Ideal S2x1600000 .i32) (x2 : Vec Ideal S1600000 .f32)
  (x3 : Vec Ideal S64x64 .f32) (x4 : Vec Ideal S64 .f32) (x5 : Vec Ideal S64x64 .f32) (x6 : Vec Ideal S64 .f32)

/-! ## The first stretch: edge lists, weights, degree -/

/-- Source nodes with the self loops appended. -/
theorem rows (h1 : Wv (Proc.devRef .tc main_arg1) = x1) :
    StableHlo.after hostOps0 Wv (Proc.devRef .tc main_v3) = val_main_v3 (F := Ideal) x1 := by
  subst h1
  after_results_simp
  rfl

/-- Target nodes with the self loops appended. -/
theorem cols (h1 : Wv (Proc.devRef .tc main_arg1) = x1) :
    StableHlo.after hostOps0 Wv (Proc.devRef .tc main_v6) = val_main_v6 (F := Ideal) x1 := by
  subst h1
  after_results_simp
  rfl

/-- Edge weights with the self loops' ones appended. -/
theorem weights (h2 : Wv (Proc.devRef .tc main_arg2) = x2) :
    StableHlo.after hostOps0 Wv (Proc.devRef .tc main_v8) = val_main_v8 (F := Ideal) x2 := by
  subst h2
  after_results_simp
  rfl

/-- Where the degree is positive. -/
theorem degPos (h1 : Wv (Proc.devRef .tc main_arg1) = x1) (h2 : Wv (Proc.devRef .tc main_arg2) = x2) :
    StableHlo.after hostOps0 Wv (Proc.devRef .tc main_v13) = val_main_v13 (F := Ideal) x1 x2 := by
  subst h1 h2
  after_results_simp
  rfl

/-- The inverse square root of the degree clamped from below. -/
theorem degRsqrt (h1 : Wv (Proc.devRef .tc main_arg1) = x1) (h2 : Wv (Proc.devRef .tc main_arg2) = x2) :
    StableHlo.after hostOps0 Wv (Proc.devRef .tc main_v16) = val_main_v16 (F := Ideal) x1 x2 := by
  subst h1 h2
  after_results_simp
  rfl

/-- The zero the selection falls back to. -/
theorem zeroFill :
    StableHlo.after hostOps0 Wv (Proc.devRef .tc main_cst_3) = val_main_cst_3 (F := Ideal) := by
  after_results_simp
  rfl

/-! ## The second stretch: the selection -/

/-- The inverse square root where the degree is positive, zero elsewhere. -/
theorem dinv (h13 : Wv (Proc.devRef .tc main_v13) = val_main_v13 (F := Ideal) x1 x2)
    (h16 : Wv (Proc.devRef .tc main_v16) = val_main_v16 (F := Ideal) x1 x2)
    (hz : Wv (Proc.devRef .tc main_cst_3) = val_main_cst_3 (F := Ideal)) :
    StableHlo.after hostOps0_1 Wv (Proc.devRef .tc main_v17) = val_main_v17 (F := Ideal) x1 x2 := by
  -- the stretch's own value first: the selection of its three operands
  have e : StableHlo.after hostOps0_1 Wv (Proc.devRef .tc main_v17)
      = select (Wv (Proc.devRef .tc main_v13) : Vec Ideal S100000 .i1) (Wv (Proc.devRef .tc main_v16) : Vec Ideal S100000 .f32)
          (broadcastInDim S100000 ![] bcast_S_S100000 (id (Wv (Proc.devRef .tc main_cst_3) : Vec Ideal S_ .f32))) := by
    after_results_simp
    rfl
  rw [e, h13, h16, hz]
  rfl

/-! ## The third stretch: the edge normalisation -/

/-- dinv at the source, times the weight, times dinv at the target. -/
theorem norm (h17 : Wv (Proc.devRef .tc main_v17) = val_main_v17 (F := Ideal) x1 x2)
    (h3 : Wv (Proc.devRef .tc main_v3) = val_main_v3 (F := Ideal) x1)
    (h6 : Wv (Proc.devRef .tc main_v6) = val_main_v6 (F := Ideal) x1)
    (h8 : Wv (Proc.devRef .tc main_v8) = val_main_v8 (F := Ideal) x2) :
    StableHlo.after hostOps0_2 Wv (Proc.devRef .tc main_v33) = val_main_v33 (F := Ideal) x1 x2 := by
  after_results_simp
  rw [h17, h3, h6, h8]
  rfl

/-! ## The aggregations and the bias rows -/

/-- The first layer's aggregation of the transformed rows. -/
theorem aggregate1 (h34 : Wv (Proc.devRef .tc main_v34) = val_main_v34 (F := Ideal) x0 x3)
    (h33 : Wv (Proc.devRef .tc main_v33) = val_main_v33 (F := Ideal) x1 x2)
    (h3 : Wv (Proc.devRef .tc main_v3) = val_main_v3 (F := Ideal) x1)
    (h6 : Wv (Proc.devRef .tc main_v6) = val_main_v6 (F := Ideal) x1) :
    StableHlo.after hostOps1 Wv (Proc.devRef .tc main_v47) = val_main_v47 (F := Ideal) x0 x1 x2 x3 := by
  after_results_simp
  rw [h34, h33, h3, h6]
  rfl

/-- The first bias as one row. -/
theorem biasRow1 (h4 : Wv (Proc.devRef .tc main_arg4) = x4) :
    StableHlo.after hostOps1 Wv (Proc.devRef .tc main_v48) = shapeCast S1x64 x4 shapeCasts_S64_S1x64 := by
  subst h4
  after_results_simp
  rfl

/-- The second layer's aggregation of the transformed rows. -/
theorem aggregate2 (h50 : Wv (Proc.devRef .tc main_v50) = val_main_v52 (F := Ideal) x0 x1 x2 x3 x4 x5)
    (h33 : Wv (Proc.devRef .tc main_v33) = val_main_v33 (F := Ideal) x1 x2)
    (h3 : Wv (Proc.devRef .tc main_v3) = val_main_v3 (F := Ideal) x1)
    (h6 : Wv (Proc.devRef .tc main_v6) = val_main_v6 (F := Ideal) x1) :
    StableHlo.after hostOps3 Wv (Proc.devRef .tc main_v63) = val_main_v65 (F := Ideal) x0 x1 x2 x3 x4 x5 := by
  after_results_simp
  rw [h50, h33, h3, h6]
  rfl

/-- The second bias as one row. -/
theorem biasRow2 (h6' : Wv (Proc.devRef .tc main_arg6) = x6) :
    StableHlo.after hostOps3 Wv (Proc.devRef .tc main_v64) = shapeCast S1x64 x6 shapeCasts_S64_S1x64 := by
  subst h6'
  after_results_simp
  rfl

end Cert.KernelIdeal.Stages

end
-- ==== Proof.Keeps.lean ====
/-
  What a host stretch leaves alone.

  Each stretch of host operations writes only its own result buffers; every other buffer holds afterwards what it held
  before. Listed per stretch: the buffers it writes, that its operations write no others, and so that a buffer outside
  the list is kept.
-/
import proofs.«115703_j90512140796730_1_alg».proof.Proof.Gen.KernelIdeal.Launch
import Idealize.ShloMosaic.Lib.StableHlo.Run

set_option maxRecDepth 16384

noncomputable section

namespace Cert.KernelIdeal.Keeps

open Idealize.ShloMosaic Idealize.ShloMosaic.TcCoe Idealize.SL.Sem
open Cert.KernelIdeal Cert.KernelIdeal.Gen

variable {F : FTy → Type} [FloatOps F]

/-- One operation's written buffer is in the stretch's list. -/
macro "writes_in_list" : tactic =>
  `(tactic| (
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)))

/-- The buffers the first stretch writes (edge lists, weights, degree and its inverse square root). -/
abbrev written0 : List (Ref sig .tc) :=
  [main_v0, main_v1, main_v2, main_v3, main_v4, main_v5, main_v6, main_cst, main_v7, main_v8, main_cst_0, main_v9,
   main_v10, main_v11, main_cst_1, main_v12, main_v13, main_cst_2, main_v14, main_v15, main_v16, main_cst_3]
theorem hostOps0_writes : (hostOps0 : List (HloOp τ sig (Elt F))).Forall fun op =>
    op.writes ⊆ (written0.map (Proc.devRef (τ := τ) .tc)).toFinset := by
  simp only [List.Forall]
  repeat' apply And.intro
  all_goals writes_in_list
theorem keep0 (Wv : Valuation τ sig (Elt F)) (r : Ref sig .tc) (h : r ∉ written0) :
    StableHlo.after hostOps0 Wv (Proc.devRef .tc r) = Wv (Proc.devRef .tc r) :=
  StableHlo.after_of_writes_sub hostOps0 _ hostOps0_writes h

/-- The buffers the selection writes. -/
abbrev written0_1 : List (Ref sig .tc) := [main_call0_v0, main_call0_v1, main_v17]
theorem hostOps0_1_writes : (hostOps0_1 : List (HloOp τ sig (Elt F))).Forall fun op =>
    op.writes ⊆ (written0_1.map (Proc.devRef (τ := τ) .tc)).toFinset := by
  simp only [List.Forall]
  repeat' apply And.intro
  all_goals writes_in_list
theorem keep0_1 (Wv : Valuation τ sig (Elt F)) (r : Ref sig .tc) (h : r ∉ written0_1) :
    StableHlo.after hostOps0_1 Wv (Proc.devRef .tc r) = Wv (Proc.devRef .tc r) :=
  StableHlo.after_of_writes_sub hostOps0_1 _ hostOps0_1_writes h

/-- The buffers the normalisation's stretch writes. -/
abbrev written0_2 : List (Ref sig .tc) :=
  [main_c, main_v18, main_v19, main_c_4, main_v20, main_v21, main_v22, main_v23, main_v24, main_v25, main_c_5, main_v26,
   main_v27, main_c_6, main_v28, main_v29, main_v30, main_v31, main_v32, main_v33]
theorem hostOps0_2_writes : (hostOps0_2 : List (HloOp τ sig (Elt F))).Forall fun op =>
    op.writes ⊆ (written0_2.map (Proc.devRef (τ := τ) .tc)).toFinset := by
  simp only [List.Forall]
  repeat' apply And.intro
  all_goals writes_in_list
theorem keep0_2 (Wv : Valuation τ sig (Elt F)) (r : Ref sig .tc) (h : r ∉ written0_2) :
    StableHlo.after hostOps0_2 Wv (Proc.devRef .tc r) = Wv (Proc.devRef .tc r) :=
  StableHlo.after_of_writes_sub hostOps0_2 _ hostOps0_2_writes h

/-- The buffers the first aggregation's stretch writes. -/
abbrev written1 : List (Ref sig .tc) :=
  [main_v35, main_c_7, main_v36, main_v37, main_c_8, main_v38, main_v39, main_v40, main_v41, main_v42, main_v43, main_v44,
   main_cst_9, main_v45, main_v46, main_v47, main_v48]
theorem hostOps1_writes : (hostOps1 : List (HloOp τ sig (Elt F))).Forall fun op =>
    op.writes ⊆ (written1.map (Proc.devRef (τ := τ) .tc)).toFinset := by
  simp only [List.Forall]
  repeat' apply And.intro
  all_goals writes_in_list
theorem keep1 (Wv : Valuation τ sig (Elt F)) (r : Ref sig .tc) (h : r ∉ written1) :
    StableHlo.after hostOps1 Wv (Proc.devRef .tc r) = Wv (Proc.devRef .tc r) :=
  StableHlo.after_of_writes_sub hostOps1 _ hostOps1_writes h

end Cert.KernelIdeal.Keeps

end
-- ==== Proof.Layer.lean ====
/-
  One graph-convolution layer's two dense pieces, as whole-array functions over the extended reals.

  `linear X W` is the matrix product: entry (n, j) is the sum over k < 64 of X(n, k) · W(k, j).
  `biasRelu A b` adds the bias row to every node row and clamps at zero: entry (n, j) is max (A(n, j) + b(0, j)) 0,
  the zero being the word 0x00000000 read as a float (never evaluated: both programs spell the same word).

  A product computed block of rows by block of rows, and the one computed in one piece, are this same function of the
  whole arrays: each entry's sum runs over the full contracted axis either way, so no sum is regrouped and no law of
  the extended reals beyond reading the operations at an index is used.
-/
import Idealize.ShloMosaic.PureOps.Ideal
import Idealize.ShloMosaic.PureOps.Ideal.Laws
import Idealize.ShloMosaic.Lib.ValueIdx

noncomputable section

namespace Cert.Layer

open Idealize.ShloMosaic

/-- Node features: 100000 nodes, 64 channels. -/
abbrev Nodes : Shape := ⟨2, ![100000, 64]⟩
/-- A layer's weight matrix. -/
abbrev Weights : Shape := ⟨2, ![64, 64]⟩
/-- A layer's bias as one row. -/
abbrev BiasRow : Shape := ⟨2, ![1, 64]⟩

/-- The left factor's index for output entry `i` and contracted index `k`: (node of `i`, k). -/
abbrev lhsAt (i : Nodes.Idx) (k : Fin 64) : Nodes.Idx := fun a => match a with
  | ⟨0, _⟩ => ⟨(i 0).val, (i 0).isLt⟩
  | ⟨1, _⟩ => ⟨k.val, k.isLt⟩

/-- The right factor's index for output entry `i` and contracted index `k`: (k, channel of `i`). -/
abbrev rhsAt (i : Nodes.Idx) (k : Fin 64) : Weights.Idx := fun a => match a with
  | ⟨0, _⟩ => ⟨k.val, k.isLt⟩
  | ⟨1, _⟩ => ⟨(i 1).val, (i 1).isLt⟩

/-- The bias entry added at output entry `i`: (0, channel of `i`). -/
abbrev biasAt (i : Nodes.Idx) : BiasRow.Idx := fun a => match a with
  | ⟨0, _⟩ => ⟨0, Nat.one_pos⟩
  | ⟨1, _⟩ => ⟨(i 1).val, (i 1).isLt⟩

/-- The dense transform X · W, entry by entry. -/
def linear (X : FVec Ideal Nodes .f32) (W : FVec Ideal Weights .f32) : FVec Ideal Nodes .f32 :=
  fun i => ∑ k : Fin 64, X (lhsAt i k) * W (rhsAt i k)

/-- Bias add and clamp at zero, entry by entry. -/
def biasRelu (A : FVec Ideal Nodes .f32) (b : FVec Ideal BiasRow .f32) : FVec Ideal Nodes .f32 :=
  fun i => max (A i + b (biasAt i)) (Ideal.ofBits .f32 0x00000000#32)

theorem linear_apply (X : FVec Ideal Nodes .f32) (W : FVec Ideal Weights .f32) (i : Nodes.Idx) :
    linear X W i = ∑ k : Fin 64, X (lhsAt i k) * W (rhsAt i k) := rfl

theorem biasRelu_apply (A : FVec Ideal Nodes .f32) (b : FVec Ideal BiasRow .f32) (i : Nodes.Idx) :
    biasRelu A b i = max (A i + b (biasAt i)) (Ideal.ofBits .f32 0x00000000#32) := rfl

end Cert.Layer

end
-- ==== Proof.Region0.lean ====
/-
  Region 0 (the first dense transform): fifty blocks of 2000 node rows, each block's rows times the whole weight matrix; the blocks tile the node axis, so the output array is the product of the whole arrays.

  The steps. The body stores, at entry (p, q) of its block, the sum over k < 64 of the node block's (p, k) times the
  weight block's (k, q): the contraction's one summation index is k, the left factor is read at (row, k) and the right at
  (k, column). At grid point t the node block is rows 2000 t … 2000 t + 1999 of the node array and the weight block is the
  whole weight matrix, so what point t writes back is block t of `linear` of the two arrays: entry (p, q) of it is the
  product's entry (2000 t + p, q), the same sum term by term. Node row r lies in the block of point r / 2000 and every
  point writes its block back, so every entry of the output array is written, and the array is `linear` of the inputs.
-/
import proofs.«115703_j90512140796730_1_alg».proof.Proof.Gen.KernelIdeal.Frame
import proofs.«115703_j90512140796730_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The body's product read at an entry -/

/-- The left factor's index on the row axis is the output's row. -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left factor's index on the contracted axis is the summation index. -/
theorem lhs_contr (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right factor's index on the contracted axis is the summation index. -/
theorem rhs_contr (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right factor's index on the column axis is the output's column. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's stored value at entry (p, q): the sum over k < 64 of the block's (p, k) times the weights' (k, q).
    Narrowing to bf16 is the identity over the extended reals, and the accumulator is the zero splat. -/
theorem pay_apply (x0 : Vec Ideal S2000x64 .f32) (x1 : Vec Ideal S64x64 .f32) (p : Fin 2000) (q : Fin 64) :
    k0_pay1 (F := Ideal) x0 x1 (ValueIdx.ix2 p q) = ∑ k : Fin 64, x0 (ValueIdx.ix2 p k) * x1 (ValueIdx.ix2 k q) := by
  unfold k0_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ValueIdx.ix2 p q) ((ValueIdx.contrEquiv1 dot_S2000x64_S64x64_S2000x64_1_0_0_1_n_n 64 rfl rfl).symm k) = ValueIdx.ix2 p k := funext fun a => Fin.ext (by
    match a with
    | ⟨0, _⟩ => exact lhs_row _ _
    | ⟨1, _⟩ => exact (lhs_contr _ _).trans hk)
  have er : dot_S2000x64_S64x64_S2000x64_1_0_0_1_n_n.rhsIdx (ValueIdx.ix2 p q) ((ValueIdx.contrEquiv1 dot_S2000x64_S64x64_S2000x64_1_0_0_1_n_n 64 rfl rfl).symm k) = ValueIdx.ix2 k q := funext fun a => Fin.ext (by
    match a with
    | ⟨0, _⟩ => exact (rhs_contr _ _).trans hk
    | ⟨1, _⟩ => exact rhs_col _ _)
  rw [ValueIdx.truncf_apply, ValueIdx.truncf_apply, el, er]

/-! ## The index maps, decided over the fifty grid points -/

theorem zero_offsets : (![0, 0] : Fin 2 → Nat) = fun _ => 0 := funext fun a => by fin_cases a <;> rfl

/-- At point t the node window and the output window sit at block row t, block column 0; the weight window at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks as entries of the whole arrays -/

/-- The node block at point t is rows 2000 t … 2000 t + 1999 of the node array, all 64 channels. -/
theorem node_block_apply (c : Dev nD) (t : Fin cfg0.N) (y : S2000x64.Idx) (i : S100000x64.Idx)
    (h0 : (i 0).val = t.val * 2000 + (y 0).val) (h1 : (i 1).val = (y 1).val) :
    (iblk0 V c 0 t : Vec Ideal S2000x64 .f32) y = (V c main_arg0 : S100000x64.Idx → Elt Ideal .f32) i := by
  obtain ⟨e0, e1, -⟩ := block_indices t
  show V c main_arg0 (((cfg0.win 0).blk t).view.emb y) = V c main_arg0 i
  refine congrArg (V c main_arg0) ?_
  funext a
  apply Fin.ext
  match a with
  | ⟨0, _⟩ => show win0_0.index t (0 : Fin 2) * 2000 + 1 * (y 0).val = (i 0).val; omega
  | ⟨1, _⟩ => show win0_0.index t (1 : Fin 2) * 64 + 1 * (y 1).val = (i 1).val; omega

/-- The weight block at every point is the whole weight matrix. -/
theorem weight_block_apply (c : Dev nD) (t : Fin cfg0.N) (y : S64x64.Idx) (i : S64x64.Idx)
    (h0 : (i 0).val = (y 0).val) (h1 : (i 1).val = (y 1).val) :
    (iblk0 V c 1 t : Vec Ideal S64x64 .f32) y = (V c main_arg3 : S64x64.Idx → Elt Ideal .f32) i := by
  obtain ⟨-, -, e2, e3, -⟩ := block_indices t
  show V c main_arg3 (((cfg0.win 1).blk t).view.emb y) = V c main_arg3 i
  refine congrArg (V c main_arg3) ?_
  funext a
  apply Fin.ext
  match a with
  | ⟨0, _⟩ => show win0_1.index t (0 : Fin 2) * 64 + 1 * (y 0).val = (i 0).val; omega
  | ⟨1, _⟩ => show win0_1.index t (1 : Fin 2) * 64 + 1 * (y 1).val = (i 1).val; omega

/-! ## What a grid point writes back -/

/-- Point t writes back block t of the product of the whole arrays: entry (p, q) of the block is the sum over k of
    node row 2000 t + p at channel k times weight (k, q), which is the product's entry (2000 t + p, q). -/
theorem written_block (c : Dev nD) (t : Fin cfg0.N) :
    (dat0 (F := Ideal) V c).flushed 2 t
      = ((cfg0.win 2).blk t).view.read (Elt Ideal) (Cert.Layer.linear (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S2000x64) zero_offsets, View.ld_unit_zero (S := S64x64) zero_offsets]
  obtain ⟨-, -, -, -, e4, e5⟩ := block_indices t
  funext j
  obtain ⟨p, q, rfl⟩ : ∃ (p : Fin 2000) (q : Fin 64), j = ValueIdx.ix2 p q := ⟨j 0, j 1, ValueIdx.eq_ix2 j⟩
  show k0_pay1 (F := Ideal) (iblk0 V c 0 t) (iblk0 V c 1 t) (ValueIdx.ix2 p q)
      = Cert.Layer.linear (V c main_arg0) (V c main_arg3) (((cfg0.win 2).blk t).view.emb (ValueIdx.ix2 p q))
  have hrow : ((((cfg0.win 2).blk t).view.emb (ValueIdx.ix2 p q)) 0).val = t.val * 2000 + p.val := by
    show win0_2.index t (0 : Fin 2) * 2000 + 1 * p.val = _; omega
  have hcol : ((((cfg0.win 2).blk t).view.emb (ValueIdx.ix2 p q)) 1).val = q.val := by
    show win0_2.index t (1 : Fin 2) * 64 + 1 * q.val = _; omega
  refine (pay_apply (iblk0 V c 0 t) (iblk0 V c 1 t) p q).trans ?_
  rw [Cert.Layer.linear_apply]
  refine Finset.sum_congr rfl fun k _ => ?_
  rw [node_block_apply V c t (ValueIdx.ix2 p k) (Cert.Layer.lhsAt (((cfg0.win 2).blk t).view.emb (ValueIdx.ix2 p q)) k) hrow rfl,
    weight_block_apply V c t (ValueIdx.ix2 k q) (Cert.Layer.rhsAt (((cfg0.win 2).blk t).view.emb (ValueIdx.ix2 p q)) k) rfl hcol]

/-! ## The blocks tile the node axis -/

/-- An index of the output array lies in point t's block iff each coordinate lies in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v34).slice (win0_2.rect t)).set ↔ _
  rw [View.set_slice_whole, Rect.mem_set_unit]
  exact Iff.rfl

/-- Node row r lies in the block of point r / 2000, and every point writes its block back. -/
theorem every_index_written (i : S100000x64.Idx) :
    ∃ t : Fin cfg0.N, (cfg0.win 2).flush t = true ∧ i ∈ ((cfg0.win 2).blk t).view.set := by
  have hr : (i 0).val < 100000 := (i 0).isLt
  have hc : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region's last grid point its output array is `linear` of its two input arrays as the region found them. -/
theorem array_eq (c : Dev nD) :
    (dat0 (F := Ideal) V c).arrAt 2 cfg0.N = Cert.Layer.linear (V c main_arg0) (V c main_arg3) := by
  exact (dat0 (F := Ideal) V c).arrAt_eq_of_cover 2 (Cert.Layer.linear (V c main_arg0) (V c main_arg3))
    (fun t _ => written_block V c t) every_index_written

end Cert.KernelIdeal.Region0

end
-- ==== Proof.Region1.lean ====
/-
  Region 1 (the first bias add and clamp): fifty blocks of 2000 node rows, each plus the one bias row, clamped at zero; the blocks tile the node axis, so the output array is that function of the whole arrays.

  Entry (p, q) of what point t stores is max (block(p, q) + bias(0, q)) 0: the shape casts keep the shape and the
  broadcast of the [1, 64] row reads its single line. Block t of the node array and block t of the output array are
  both rows 2000 t to 2000 t + 1999 (all 64 channels), and the bias row is fetched whole, so what point t writes back is
  block t of `biasRelu` of the two arrays. Row r lies in block r / 2000 and r / 2000 < 50, so every entry is written.
-/
import proofs.«115703_j90512140796730_1_alg».proof.Proof.Gen.KernelIdeal.Frame
import proofs.«115703_j90512140796730_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open Idealize.ShloMosaic.ValueIdx (ix2 eq_ix2)

/-! ## The body's value at one entry of a block -/

/-- The bias row broadcast over the 2000 rows of a block, read at entry (p, q): the row has a single line, so the
    entry read is (0, q). -/
theorem bias_broadcast_apply (x1 : Vec Ideal S1x64 .f32) (p : Fin 2000) (q : Fin 64) :
    broadcastTo S2000x64 x1 broadcasts_S1x64_S2000x64 (ix2 p q) = x1 (ix2 (0 : Fin 1) q) :=
  broadcastTo_apply x1 broadcasts_S1x64_S2000x64 (ix2 p q) (ix2 (0 : Fin 1) q) (fun a => by
    match a with
    | ⟨0, _⟩ => exact (if_pos rfl).symm
    | ⟨1, _⟩ => exact (if_neg (show ¬ ((64 : Nat) = 1) by decide)).symm)

/-- What the body stores, at entry (p, q) of the block: the block's entry plus the bias of channel q, clamped below at
    the zero word. The two shape casts keep the shape, the broadcast reads the row's single line, and the sum and the
    maximum are taken entry by entry. -/
theorem stored_apply (x0 : Vec Ideal S2000x64 .f32) (x1 : Vec Ideal S1x64 .f32) (p : Fin 2000) (q : Fin 64) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self, ValueIdx.maximumf_apply, ValueIdx.addf_apply, ValueIdx.broadcast_apply,
    bias_broadcast_apply]
  rfl

/-- The same at any index of the block, the channel being the index's second coordinate. -/
theorem stored_at (x0 : Vec Ideal S2000x64 .f32) (x1 : Vec Ideal S1x64 .f32) (j : S2000x64.Idx) :
    k1_pay1 (F := Ideal) x0 x1 j
      = max (x0 j + x1 (ix2 (0 : Fin 1) (⟨(j 1).val, (j 1).isLt⟩ : Fin 64))) (Ideal.ofBits .f32 0x00000000#32) := by
  obtain ⟨p, q, rfl⟩ : ∃ (p : Fin 2000) (q : Fin 64), j = ix2 p q := ⟨j 0, j 1, eq_ix2 j⟩
  exact stored_apply x0 x1 p q

/-! ## The blocks' places in their arrays -/

/-- The body loads and stores whole blocks: its rectangles start at offset zero on both axes. -/
theorem zero_offsets : (![0, 0] : Fin 2 → Nat) = fun _ => 0 := funext fun a => by fin_cases a <;> rfl

/-- The three index maps over the fifty grid points: at point t the node block and the output block are block t of
    the node axis (and the only block of the channel axis); the bias row is its array's only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRelu` of the two input arrays. Entry (p, q) of the output block is
    node row 2000 t + p and channel q of the output array; entry (p, q) of the input block sits at the same place of
    the node array (both blocks have index (t, 0) and size [2000, 64]); and the bias read is entry (0, q) of the row,
    at every t (the row's block has index (0, 0) and is the whole row). -/
theorem flushed_eq (c : Dev nD) (t : Fin cfg1.N) :
    (dat1 (F := Ideal) V c).flushed 2 t
      = ((cfg1.win 2).blk t).view.read (Elt Ideal) (Cert.Layer.biasRelu (V c main_v47) (V c main_v48)) := by
  show (cfg1.win 2).cut (grid1.coords t) ((dat1 (F := Ideal) V c).after 2 t) = _
  rw [after1_2]
  unfold out1_2
  rw [View.canon_unit_zero zero_offsets]
  simp only [View.ld_unit_zero (S := S2000x64) zero_offsets, View.ld_unit_zero (S := S1x64) zero_offsets]
  obtain ⟨e00, e01, e10, e11, e20, e21⟩ := block_indices t
  funext j
  show k1_pay1 (F := Ideal) (iblk1 V c 0 t) (iblk1 V c 1 t) j
      = Cert.Layer.biasRelu (V c main_v47) (V c main_v48) (((cfg1.win 2).blk t).view.emb j)
  refine (stored_at (iblk1 V c 0 t) (iblk1 V c 1 t) j).trans ?_
  rw [Cert.Layer.biasRelu_apply]
  -- the node block's entry j is the node array at the output block's entry j: same block index, same block size
  have hnode : iblk1 V c 0 t j = V c main_v47 (((cfg1.win 2).blk t).view.emb j) := by
    show V c main_v47 (((cfg1.win 0).blk t).view.emb j) = V c main_v47 (((cfg1.win 2).blk t).view.emb j)
    refine congrArg _ (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 64 + 1 * (j 1).val = win1_2.index t (1 : Fin 2) * 64 + 1 * (j 1).val
      omega
  -- the bias block's entry (0, channel of j) is the bias row at (0, channel of the output block's entry j)
  have hbias : iblk1 V c 1 t (ix2 (0 : Fin 1) (⟨(j 1).val, (j 1).isLt⟩ : Fin 64))
      = V c main_v48 (Cert.Layer.biasAt (((cfg1.win 2).blk t).view.emb j)) := by
    show V c main_v48 (((cfg1.win 1).blk t).view.emb (ix2 (0 : Fin 1) (⟨(j 1).val, (j 1).isLt⟩ : Fin 64)))
      = V c main_v48 (Cert.Layer.biasAt (((cfg1.win 2).blk t).view.emb j))
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_2.index t (1 : Fin 2) * 64 + 1 * (j 1).val
      omega
  rw [hnode, hbias]

/-! ## The blocks tile the node axis -/

/-- An entry of the output array is in point t's block iff each coordinate is in the block's range on its axis. -/
theorem mem_block (t : Fin cfg1.N) (i : S100000x64.Idx) :
    i ∈ ((cfg1.win 2).blk t).view.set
      ↔ ∀ a : Fin 2, win1_2.index t a * S2000x64.size a ≤ (i a).val
          ∧ (i a).val < win1_2.index t a * S2000x64.size a + S2000x64.size a := by
  show i ∈ ((View.whole main_v49).slice (win1_2.rect t)).set ↔ _
  rw [View.set_slice_whole, Rect.mem_set_unit]
  exact Iff.rfl

/-- Every entry (r, q) of the output array is written back, by the point r / 2000: its block holds node rows
    2000 (r / 2000) to 2000 (r / 2000) + 1999 and all 64 channels, and r / 2000 < 50 since r < 100000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e20, e21⟩ := block_indices t
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- After the region's last grid point its output array is `biasRelu` of its two input arrays as the region found them. -/
theorem array_eq (c : Dev nD) :
    (dat1 (F := Ideal) V c).arrAt 2 cfg1.N = Cert.Layer.biasRelu (V c main_v47) (V c main_v48) := by
  exact (dat1 (F := Ideal) V c).arrAt_eq_of_cover 2 (Cert.Layer.biasRelu (V c main_v47) (V c main_v48))
    (fun t _ => flushed_eq V c t) covered

end Cert.KernelIdeal.Region1

end
-- ==== Proof.Region2.lean ====
/-
  Region 2 (the second dense transform): fifty blocks of 2000 node rows, each block's rows times the whole weight matrix; the blocks tile the node axis, so the output array is the product of the whole arrays.

  The steps. The body stores, at entry (p, q) of its block, the sum over k < 64 of the node block's (p, k) times the
  weight block's (k, q): the contraction's one summation index is k, the left factor is read at (row, k) and the right at
  (k, column). At grid point t the node block is rows 2000 t … 2000 t + 1999 of the node array and the weight block is the
  whole weight matrix, so what point t writes back is block t of `linear` of the two arrays: entry (p, q) of it is the
  product's entry (2000 t + p, q), the same sum term by term. Node row r lies in the block of point r / 2000 and every
  point writes its block back, so every entry of the output array is written, and the array is `linear` of the inputs.
-/
import proofs.«115703_j90512140796730_1_alg».proof.Proof.Gen.KernelIdeal.Frame
import proofs.«115703_j90512140796730_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The body's product read at an entry -/

/-- The left factor's index on the row axis is the output's row. -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left factor's index on the contracted axis is the summation index. -/
theorem lhs_contr (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right factor's index on the contracted axis is the summation index. -/
theorem rhs_contr (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right factor's index on the column axis is the output's column. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's stored value at entry (p, q): the sum over k < 64 of the block's (p, k) times the weights' (k, q).
    The cast of the node block to its own shape and the narrowing to bf16 are the identity over the extended reals, and
    the accumulator is the zero splat. -/
theorem pay_apply (x0 : Vec Ideal S2000x64 .f32) (x1 : Vec Ideal S64x64 .f32) (p : Fin 2000) (q : Fin 64) :
    k2_pay1 (F := Ideal) x0 x1 (ValueIdx.ix2 p q) = ∑ k : Fin 64, x0 (ValueIdx.ix2 p k) * x1 (ValueIdx.ix2 k q) := by
  unfold k2_pay1
  simp only [matmul, shapeCast_self]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ValueIdx.ix2 p q) ((ValueIdx.contrEquiv1 dot_S2000x64_S64x64_S2000x64_1_0_0_1_n_n 64 rfl rfl).symm k) = ValueIdx.ix2 p k := funext fun a => Fin.ext (by
    match a with
    | ⟨0, _⟩ => exact lhs_row _ _
    | ⟨1, _⟩ => exact (lhs_contr _ _).trans hk)
  have er : dot_S2000x64_S64x64_S2000x64_1_0_0_1_n_n.rhsIdx (ValueIdx.ix2 p q) ((ValueIdx.contrEquiv1 dot_S2000x64_S64x64_S2000x64_1_0_0_1_n_n 64 rfl rfl).symm k) = ValueIdx.ix2 k q := funext fun a => Fin.ext (by
    match a with
    | ⟨0, _⟩ => exact (rhs_contr _ _).trans hk
    | ⟨1, _⟩ => exact rhs_col _ _)
  rw [ValueIdx.truncf_apply, ValueIdx.truncf_apply, el, er]

/-! ## The index maps, decided over the fifty grid points -/

theorem zero_offsets : (![0, 0] : Fin 2 → Nat) = fun _ => 0 := funext fun a => by fin_cases a <;> rfl

/-- At point t the node window and the output window sit at block row t, block column 0; the weight window at block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## The input blocks as entries of the whole arrays -/

/-- The node block at point t is rows 2000 t … 2000 t + 1999 of the node array, all 64 channels. -/
theorem node_block_apply (c : Dev nD) (t : Fin cfg2.N) (y : S2000x64.Idx) (i : S100000x64.Idx)
    (h0 : (i 0).val = t.val * 2000 + (y 0).val) (h1 : (i 1).val = (y 1).val) :
    (iblk2 V c 0 t : Vec Ideal S2000x64 .f32) y = (V c main_v49 : S100000x64.Idx → Elt Ideal .f32) i := by
  obtain ⟨e0, e1, -⟩ := block_indices t
  show V c main_v49 (((cfg2.win 0).blk t).view.emb y) = V c main_v49 i
  refine congrArg (V c main_v49) ?_
  funext a
  apply Fin.ext
  match a with
  | ⟨0, _⟩ => show win2_0.index t (0 : Fin 2) * 2000 + 1 * (y 0).val = (i 0).val; omega
  | ⟨1, _⟩ => show win2_0.index t (1 : Fin 2) * 64 + 1 * (y 1).val = (i 1).val; omega

/-- The weight block at every point is the whole weight matrix. -/
theorem weight_block_apply (c : Dev nD) (t : Fin cfg2.N) (y : S64x64.Idx) (i : S64x64.Idx)
    (h0 : (i 0).val = (y 0).val) (h1 : (i 1).val = (y 1).val) :
    (iblk2 V c 1 t : Vec Ideal S64x64 .f32) y = (V c main_arg5 : S64x64.Idx → Elt Ideal .f32) i := by
  obtain ⟨-, -, e2, e3, -⟩ := block_indices t
  show V c main_arg5 (((cfg2.win 1).blk t).view.emb y) = V c main_arg5 i
  refine congrArg (V c main_arg5) ?_
  funext a
  apply Fin.ext
  match a with
  | ⟨0, _⟩ => show win2_1.index t (0 : Fin 2) * 64 + 1 * (y 0).val = (i 0).val; omega
  | ⟨1, _⟩ => show win2_1.index t (1 : Fin 2) * 64 + 1 * (y 1).val = (i 1).val; omega

/-! ## What a grid point writes back -/

/-- Point t writes back block t of the product of the whole arrays: entry (p, q) of the block is the sum over k of
    node row 2000 t + p at channel k times weight (k, q), which is the product's entry (2000 t + p, q). -/
theorem written_block (c : Dev nD) (t : Fin cfg2.N) :
    (dat2 (F := Ideal) V c).flushed 2 t
      = ((cfg2.win 2).blk t).view.read (Elt Ideal) (Cert.Layer.linear (V c main_v49) (V c main_arg5)) := by
  show (cfg2.win 2).cut (grid2.coords t) ((dat2 (F := Ideal) V c).after 2 t) = _
  rw [after2_2]
  unfold out2_2
  rw [View.canon_unit_zero zero_offsets]
  simp only [View.ld_unit_zero (S := S2000x64) zero_offsets, View.ld_unit_zero (S := S64x64) zero_offsets]
  obtain ⟨-, -, -, -, e4, e5⟩ := block_indices t
  funext j
  obtain ⟨p, q, rfl⟩ : ∃ (p : Fin 2000) (q : Fin 64), j = ValueIdx.ix2 p q := ⟨j 0, j 1, ValueIdx.eq_ix2 j⟩
  show k2_pay1 (F := Ideal) (iblk2 V c 0 t) (iblk2 V c 1 t) (ValueIdx.ix2 p q)
      = Cert.Layer.linear (V c main_v49) (V c main_arg5) (((cfg2.win 2).blk t).view.emb (ValueIdx.ix2 p q))
  have hrow : ((((cfg2.win 2).blk t).view.emb (ValueIdx.ix2 p q)) 0).val = t.val * 2000 + p.val := by
    show win2_2.index t (0 : Fin 2) * 2000 + 1 * p.val = _; omega
  have hcol : ((((cfg2.win 2).blk t).view.emb (ValueIdx.ix2 p q)) 1).val = q.val := by
    show win2_2.index t (1 : Fin 2) * 64 + 1 * q.val = _; omega
  refine (pay_apply (iblk2 V c 0 t) (iblk2 V c 1 t) p q).trans ?_
  rw [Cert.Layer.linear_apply]
  refine Finset.sum_congr rfl fun k _ => ?_
  rw [node_block_apply V c t (ValueIdx.ix2 p k) (Cert.Layer.lhsAt (((cfg2.win 2).blk t).view.emb (ValueIdx.ix2 p q)) k) hrow rfl,
    weight_block_apply V c t (ValueIdx.ix2 k q) (Cert.Layer.rhsAt (((cfg2.win 2).blk t).view.emb (ValueIdx.ix2 p q)) k) rfl hcol]

/-! ## The blocks tile the node axis -/

/-- An index of the output array lies in point t's block iff each coordinate lies in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v50).slice (win2_2.rect t)).set ↔ _
  rw [View.set_slice_whole, Rect.mem_set_unit]
  exact Iff.rfl

/-- Node row r lies in the block of point r / 2000, and every point writes its block back. -/
theorem every_index_written (i : S100000x64.Idx) :
    ∃ t : Fin cfg2.N, (cfg2.win 2).flush t = true ∧ i ∈ ((cfg2.win 2).blk t).view.set := by
  have hr : (i 0).val < 100000 := (i 0).isLt
  have hc : (i 1).val < 64 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, e4, e5⟩ := block_indices t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region's last grid point its output array is `linear` of its two input arrays as the region found them. -/
theorem array_eq (c : Dev nD) :
    (dat2 (F := Ideal) V c).arrAt 2 cfg2.N = Cert.Layer.linear (V c main_v49) (V c main_arg5) := by
  exact (dat2 (F := Ideal) V c).arrAt_eq_of_cover 2 (Cert.Layer.linear (V c main_v49) (V c main_arg5))
    (fun t _ => written_block V c t) every_index_written

end Cert.KernelIdeal.Region2

end
-- ==== Proof.Region3.lean ====
/-
  Region 3 (the second bias add and clamp): fifty blocks of 2000 node rows, each plus the one bias row, clamped at zero; the blocks tile the node axis, so the output array is that function of the whole arrays.

  Entry (p, q) of what point t stores is max (block(p, q) + bias(0, q)) 0: the shape casts keep the shape and the
  broadcast of the [1, 64] row reads its single line. Block t of the node array and block t of the output array are
  both rows 2000 t to 2000 t + 1999 (all 64 channels), and the bias row is fetched whole, so what point t writes back is
  block t of `biasRelu` of the two arrays. Row r lies in block r / 2000 and r / 2000 < 50, so every entry is written.
-/
import proofs.«115703_j90512140796730_1_alg».proof.Proof.Gen.KernelIdeal.Frame
import proofs.«115703_j90512140796730_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open Idealize.ShloMosaic.ValueIdx (ix2 eq_ix2)

/-! ## The body's value at one entry of a block -/

/-- The bias row broadcast over the 2000 rows of a block, read at entry (p, q): the row has a single line, so the
    entry read is (0, q). -/
theorem bias_broadcast_apply (x1 : Vec Ideal S1x64 .f32) (p : Fin 2000) (q : Fin 64) :
    broadcastTo S2000x64 x1 broadcasts_S1x64_S2000x64 (ix2 p q) = x1 (ix2 (0 : Fin 1) q) :=
  broadcastTo_apply x1 broadcasts_S1x64_S2000x64 (ix2 p q) (ix2 (0 : Fin 1) q) (fun a => by
    match a with
    | ⟨0, _⟩ => exact (if_pos rfl).symm
    | ⟨1, _⟩ => exact (if_neg (show ¬ ((64 : Nat) = 1) by decide)).symm)

/-- What the body stores, at entry (p, q) of the block: the block's entry plus the bias of channel q, clamped below at
    the zero word. The two shape casts keep the shape, the broadcast reads the row's single line, and the sum and the
    maximum are taken entry by entry. -/
theorem stored_apply (x0 : Vec Ideal S2000x64 .f32) (x1 : Vec Ideal S1x64 .f32) (p : Fin 2000) (q : Fin 64) :
    k3_pay1 (F := Ideal) x0 x1 (ix2 p q)
      = max (x0 (ix2 p q) + x1 (ix2 (0 : Fin 1) q)) (Ideal.ofBits .f32 0x00000000#32) := by
  unfold k3_pay1
  rw [shapeCast_self, shapeCast_self, ValueIdx.maximumf_apply, ValueIdx.addf_apply, ValueIdx.broadcast_apply,
    bias_broadcast_apply]
  rfl

/-- The same at any index of the block, the channel being the index's second coordinate. -/
theorem stored_at (x0 : Vec Ideal S2000x64 .f32) (x1 : Vec Ideal S1x64 .f32) (j : S2000x64.Idx) :
    k3_pay1 (F := Ideal) x0 x1 j
      = max (x0 j + x1 (ix2 (0 : Fin 1) (⟨(j 1).val, (j 1).isLt⟩ : Fin 64))) (Ideal.ofBits .f32 0x00000000#32) := by
  obtain ⟨p, q, rfl⟩ : ∃ (p : Fin 2000) (q : Fin 64), j = ix2 p q := ⟨j 0, j 1, eq_ix2 j⟩
  exact stored_apply x0 x1 p q

/-! ## The blocks' places in their arrays -/

/-- The body loads and stores whole blocks: its rectangles start at offset zero on both axes. -/
theorem zero_offsets : (![0, 0] : Fin 2 → Nat) = fun _ => 0 := funext fun a => by fin_cases a <;> rfl

/-- The three index maps over the fifty grid points: at point t the node block and the output block are block t of
    the node axis (and the only block of the channel axis); the bias row is its array's only block. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `biasRelu` of the two input arrays. Entry (p, q) of the output block is
    node row 2000 t + p and channel q of the output array; entry (p, q) of the input block sits at the same place of
    the node array (both blocks have index (t, 0) and size [2000, 64]); and the bias read is entry (0, q) of the row,
    at every t (the row's block has index (0, 0) and is the whole row). -/
theorem flushed_eq (c : Dev nD) (t : Fin cfg3.N) :
    (dat3 (F := Ideal) V c).flushed 2 t
      = ((cfg3.win 2).blk t).view.read (Elt Ideal) (Cert.Layer.biasRelu (V c main_v63) (V c main_v64)) := by
  show (cfg3.win 2).cut (grid3.coords t) ((dat3 (F := Ideal) V c).after 2 t) = _
  rw [after3_2]
  unfold out3_2
  rw [View.canon_unit_zero zero_offsets]
  simp only [View.ld_unit_zero (S := S2000x64) zero_offsets, View.ld_unit_zero (S := S1x64) zero_offsets]
  obtain ⟨e00, e01, e10, e11, e20, e21⟩ := block_indices t
  funext j
  show k3_pay1 (F := Ideal) (iblk3 V c 0 t) (iblk3 V c 1 t) j
      = Cert.Layer.biasRelu (V c main_v63) (V c main_v64) (((cfg3.win 2).blk t).view.emb j)
  refine (stored_at (iblk3 V c 0 t) (iblk3 V c 1 t) j).trans ?_
  rw [Cert.Layer.biasRelu_apply]
  -- the node block's entry j is the node array at the output block's entry j: same block index, same block size
  have hnode : iblk3 V c 0 t j = V c main_v63 (((cfg3.win 2).blk t).view.emb j) := by
    show V c main_v63 (((cfg3.win 0).blk t).view.emb j) = V c main_v63 (((cfg3.win 2).blk t).view.emb j)
    refine congrArg _ (funext fun a => Fin.ext ?_)
    match a with
    | ⟨0, _⟩ =>
      show win3_0.index t (0 : Fin 2) * 2000 + 1 * (j 0).val = win3_2.index t (0 : Fin 2) * 2000 + 1 * (j 0).val
      omega
    | ⟨1, _⟩ =>
      show win3_0.index t (1 : Fin 2) * 64 + 1 * (j 1).val = win3_2.index t (1 : Fin 2) * 64 + 1 * (j 1).val
      omega
  -- the bias block's entry (0, channel of j) is the bias row at (0, channel of the output block's entry j)
  have hbias : iblk3 V c 1 t (ix2 (0 : Fin 1) (⟨(j 1).val, (j 1).isLt⟩ : Fin 64))
      = V c main_v64 (Cert.Layer.biasAt (((cfg3.win 2).blk t).view.emb j)) := by
    show V c main_v64 (((cfg3.win 1).blk t).view.emb (ix2 (0 : Fin 1) (⟨(j 1).val, (j 1).isLt⟩ : Fin 64)))
      = V c main_v64 (Cert.Layer.biasAt (((cfg3.win 2).blk t).view.emb j))
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 64 + 1 * (j 1).val
      omega
  rw [hnode, hbias]

/-! ## The blocks tile the node axis -/

/-- An entry of the output array is in point t's block iff each coordinate is in the block's range on its axis. -/
theorem mem_block (t : Fin cfg3.N) (i : S100000x64.Idx) :
    i ∈ ((cfg3.win 2).blk t).view.set
      ↔ ∀ a : Fin 2, win3_2.index t a * S2000x64.size a ≤ (i a).val
          ∧ (i a).val < win3_2.index t a * S2000x64.size a + S2000x64.size a := by
  show i ∈ ((View.whole main_v65).slice (win3_2.rect t)).set ↔ _
  rw [View.set_slice_whole, Rect.mem_set_unit]
  exact Iff.rfl

/-- Every entry (r, q) of the output array is written back, by the point r / 2000: its block holds node rows
    2000 (r / 2000) to 2000 (r / 2000) + 1999 and all 64 channels, and r / 2000 < 50 since r < 100000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, e20, e21⟩ := block_indices t
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 64 ≤ (i 1).val ∧ (i 1).val < win3_2.index t (1 : Fin 2) * 64 + 64
    omega

/-- After the region's last grid point its output array is `biasRelu` of its two input arrays as the region found them. -/
theorem array_eq (c : Dev nD) :
    (dat3 (F := Ideal) V c).arrAt 2 cfg3.N = Cert.Layer.biasRelu (V c main_v63) (V c main_v64) := by
  exact (dat3 (F := Ideal) V c).arrAt_eq_of_cover 2 (Cert.Layer.biasRelu (V c main_v63) (V c main_v64))
    (fun t _ => flushed_eq V c t) covered

end Cert.KernelIdeal.Region3

end
-- ==== Proof.RefLayer.lean ====
/-
  The reference's dense stages are the layer functions.

  The reference's `dot_general` of a node array with a weight matrix is `Layer.linear` of them (each entry is the sum
  over the contracted index of the products, read off the printed contraction), and its bias add followed by the
  clamp at zero is `Layer.biasRelu` of the aggregated array and the bias laid out as one row (the reference broadcasts
  the bias vector along the nodes; the row form reads the same entry of it at every node).
-/
import proofs.«115703_j90512140796730_1_alg».proof.Proof.Gen.ReferenceIdeal.Read
import proofs.«115703_j90512140796730_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.ReferenceIdeal.RefLayer

open Idealize.ShloMosaic Idealize.ShloMosaic.TcCoe Idealize.SL.Sem
open Cert.ReferenceIdeal Cert.ReferenceIdeal.Gen Cert.ReferenceIdeal.Read

variable (x0 : Vec Ideal S100000x64 .f32) (x1 : Vec Ideal S2x1600000 .i32) (x2 : Vec Ideal S1600000 .f32)
  (x3 : Vec Ideal S64x64 .f32) (x4 : Vec Ideal S64 .f32) (x5 : Vec Ideal S64x64 .f32) (x6 : Vec Ideal S64 .f32)

/-- A bias vector laid out as one row, read at the row entry an output entry uses: the vector's entry at the
    output's channel. -/
theorem biasRow_apply (b : Vec Ideal S64 .f32) (h : S64.ShapeCasts S1x64) (i : S100000x64.Idx) (k : S64.Idx)
    (hk : (k 0).val = (i 1).val) :
    shapeCast S1x64 b h (Cert.Layer.biasAt i) = b k := by
  refine (shapeCast_addUnit_apply ![64] b h (Cert.Layer.biasAt i)).trans (congrArg b ?_)
  funext a
  apply Fin.ext
  match a with
  | ⟨0, _⟩ => exact hk.symm

/-- The first layer's transform is the matrix product of the node features with the first weights. -/
theorem linear1 : val_main_v34 (F := Ideal) x0 x3 = Cert.Layer.linear x0 x3 := by
  funext i
  rw [val_main_v34_apply, Cert.Layer.linear_apply]
  refine Finset.sum_congr rfl fun k _ => ?_
  have el : lidx_main_v34 i k = Cert.Layer.lhsAt i k := funext fun a => Fin.ext (by
    match a with
    | ⟨0, _⟩ => rfl
    | ⟨1, _⟩ => rfl)
  have er : ridx_main_v34 i k = Cert.Layer.rhsAt i k := funext fun a => Fin.ext (by
    match a with
    | ⟨0, _⟩ => rfl
    | ⟨1, _⟩ => rfl)
  rw [el, er]

/-- The second layer's transform is the matrix product of the first layer's output with the second weights. -/
theorem linear2 : val_main_v52 (F := Ideal) x0 x1 x2 x3 x4 x5
    = Cert.Layer.linear (val_main_v51 (F := Ideal) x0 x1 x2 x3 x4) x5 := by
  funext i
  rw [val_main_v52_apply, Cert.Layer.linear_apply]
  refine Finset.sum_congr rfl fun k _ => ?_
  have el : lidx_main_v52 i k = Cert.Layer.lhsAt i k := funext fun a => Fin.ext (by
    match a with
    | ⟨0, _⟩ => rfl
    | ⟨1, _⟩ => rfl)
  have er : ridx_main_v52 i k = Cert.Layer.rhsAt i k := funext fun a => Fin.ext (by
    match a with
    | ⟨0, _⟩ => rfl
    | ⟨1, _⟩ => rfl)
  rw [el, er]

/-- The first layer's output: the aggregated array plus the bias, clamped at zero. -/
theorem biasRelu1 (h : S64.ShapeCasts S1x64) : val_main_v51 (F := Ideal) x0 x1 x2 x3 x4
    = Cert.Layer.biasRelu (val_main_v47 (F := Ideal) x0 x1 x2 x3) (shapeCast S1x64 x4 h) := by
  funext i
  rw [val_main_v51_apply, val_main_v50_apply, val_main_v49_apply, val_main_v48_apply, val_main_call1_v0_apply,
    val_main_call1_cst_apply, Cert.Layer.biasRelu_apply,
    biasRow_apply x4 h i (idx_main_v48 (idx_main_v49 i)) rfl]
  rfl

/-- The second layer's output: the aggregated array plus the bias, clamped at zero. -/
theorem biasRelu2 (h : S64.ShapeCasts S1x64) : val_main_v69 (F := Ideal) x0 x1 x2 x3 x4 x5 x6
    = Cert.Layer.biasRelu (val_main_v65 (F := Ideal) x0 x1 x2 x3 x4 x5) (shapeCast S1x64 x6 h) := by
  funext i
  rw [val_main_v69_apply, val_main_v68_apply, val_main_v67_apply, val_main_v66_apply, val_main_call2_v0_apply,
    val_main_call2_cst_apply, Cert.Layer.biasRelu_apply,
    biasRow_apply x6 h i (idx_main_v66 (idx_main_v67 i)) rfl]
  rfl

end Cert.ReferenceIdeal.RefLayer

end
-- ==== Proof.Chain.lean ====
/-
  The kernel's result, boundary by boundary, is the reference's.

  Between the launch and the return the kernel's buffers pass nine boundaries: three host stretches (edge lists and
  degree; the selection; the normalisation), the first dense transform, the first aggregation's stretch, the first bias
  and clamp, the second dense transform, the second aggregation's stretch, the second bias and clamp. At each boundary
  the buffers that matter hold the reference's values of them, as functions of the seven argument arrays as launched:
  a host stretch by the stage lemmas (same operations, same operands), a region by its array lemma and the layer
  functions (a product computed block of rows by block of rows is the product; a bias add and clamp computed block by
  block is the bias add and clamp), and a buffer nothing writes in between by being kept.
-/
import proofs.«115703_j90512140796730_1_alg».proof.Proof.Gen.KernelIdeal.Frame
import proofs.«115703_j90512140796730_1_alg».proof.Proof.HostStages
import proofs.«115703_j90512140796730_1_alg».proof.Proof.Keeps
import proofs.«115703_j90512140796730_1_alg».proof.Proof.Region0
import proofs.«115703_j90512140796730_1_alg».proof.Proof.Region1
import proofs.«115703_j90512140796730_1_alg».proof.Proof.Region2
import proofs.«115703_j90512140796730_1_alg».proof.Proof.Region3
import proofs.«115703_j90512140796730_1_alg».proof.Proof.RefLayer
import proofs.«115703_j90512140796730_1_alg».proof.Proof.Layer

set_option maxRecDepth 16384

noncomputable section

namespace Cert.KernelIdeal.Chain

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## The argument arrays as launched -/

abbrev a0 : Vec Ideal S100000x64 .f32 := m ((c.tc : Thread nD τ).loc main_arg0)
abbrev a1 : Vec Ideal S2x1600000 .i32 := m ((c.tc : Thread nD τ).loc main_arg1)
abbrev a2 : Vec Ideal S1600000 .f32 := m ((c.tc : Thread nD τ).loc main_arg2)
abbrev a3 : Vec Ideal S64x64 .f32 := m ((c.tc : Thread nD τ).loc main_arg3)
abbrev a4 : Vec Ideal S64 .f32 := m ((c.tc : Thread nD τ).loc main_arg4)
abbrev a5 : Vec Ideal S64x64 .f32 := m ((c.tc : Thread nD τ).loc main_arg5)
abbrev a6 : Vec Ideal S64 .f32 := m ((c.tc : Thread nD τ).loc main_arg6)

/-! ## After the first stretch -/

theorem w1_rows : W1 m ρ c (Proc.devRef .tc main_v3) = val_main_v3 (F := Ideal) (a1 m c) :=
  Stages.rows (W0 m ρ c) (a1 m c) rfl
theorem w1_cols : W1 m ρ c (Proc.devRef .tc main_v6) = val_main_v6 (F := Ideal) (a1 m c) :=
  Stages.cols (W0 m ρ c) (a1 m c) rfl
theorem w1_weights : W1 m ρ c (Proc.devRef .tc main_v8) = val_main_v8 (F := Ideal) (a2 m c) :=
  Stages.weights (W0 m ρ c) (a2 m c) rfl
theorem w1_degPos : W1 m ρ c (Proc.devRef .tc main_v13) = val_main_v13 (F := Ideal) (a1 m c) (a2 m c) :=
  Stages.degPos (W0 m ρ c) (a1 m c) (a2 m c) rfl rfl
theorem w1_degRsqrt : W1 m ρ c (Proc.devRef .tc main_v16) = val_main_v16 (F := Ideal) (a1 m c) (a2 m c) :=
  Stages.degRsqrt (W0 m ρ c) (a1 m c) (a2 m c) rfl rfl
theorem w1_zero : W1 m ρ c (Proc.devRef .tc main_cst_3) = val_main_cst_3 (F := Ideal) :=
  Stages.zeroFill (W0 m ρ c)

/-! ## After the selection -/

theorem w2_dinv : W2 m ρ c (Proc.devRef .tc main_v17) = val_main_v17 (F := Ideal) (a1 m c) (a2 m c) :=
  Stages.dinv (W1 m ρ c) (a1 m c) (a2 m c) (w1_degPos m ρ c) (w1_degRsqrt m ρ c) (w1_zero m ρ c)
theorem w2_rows : W2 m ρ c (Proc.devRef .tc main_v3) = val_main_v3 (F := Ideal) (a1 m c) :=
  (Keeps.keep0_1 (W1 m ρ c) main_v3 (by decide)).trans (w1_rows m ρ c)
theorem w2_cols : W2 m ρ c (Proc.devRef .tc main_v6) = val_main_v6 (F := Ideal) (a1 m c) :=
  (Keeps.keep0_1 (W1 m ρ c) main_v6 (by decide)).trans (w1_cols m ρ c)
theorem w2_weights : W2 m ρ c (Proc.devRef .tc main_v8) = val_main_v8 (F := Ideal) (a2 m c) :=
  (Keeps.keep0_1 (W1 m ρ c) main_v8 (by decide)).trans (w1_weights m ρ c)

/-! ## After the normalisation: the first region's entry -/

theorem w3_norm : W3 m ρ c (Proc.devRef .tc main_v33) = val_main_v33 (F := Ideal) (a1 m c) (a2 m c) :=
  Stages.norm (W2 m ρ c) (a1 m c) (a2 m c) (w2_dinv m ρ c) (w2_rows m ρ c) (w2_cols m ρ c) (w2_weights m ρ c)
theorem w3_rows : W3 m ρ c (Proc.devRef .tc main_v3) = val_main_v3 (F := Ideal) (a1 m c) :=
  (Keeps.keep0_2 (W2 m ρ c) main_v3 (by decide)).trans (w2_rows m ρ c)
theorem w3_cols : W3 m ρ c (Proc.devRef .tc main_v6) = val_main_v6 (F := Ideal) (a1 m c) :=
  (Keeps.keep0_2 (W2 m ρ c) main_v6 (by decide)).trans (w2_cols m ρ c)

/-- A buffer none of the three stretches writes still holds what was launched. -/
theorem w3_kept (b : Ref sig .tc) (h0 : b ∉ Keeps.written0) (h1 : b ∉ Keeps.written0_1) (h2 : b ∉ Keeps.written0_2) :
    W3 m ρ c (Proc.devRef .tc b) = m ((c.tc : Thread nD τ).loc b) :=
  (Keeps.keep0_2 (W2 m ρ c) b h2).trans ((Keeps.keep0_1 (W1 m ρ c) b h1).trans ((Keeps.keep0 (W0 m ρ c) b h0).trans rfl))

/-! ## After the first dense transform -/

theorem w4_linear : W4 m ρ c (Proc.devRef .tc main_v34) = val_main_v34 (F := Ideal) (a0 m c) (a3 m c) := by
  refine (W4_arr m ρ c 2).trans ((Region0.array_eq (V3 m ρ) c).trans ?_)
  rw [show V3 m ρ c main_arg0 = a0 m c from w3_kept m ρ c main_arg0 (by decide) (by decide) (by decide),
    show V3 m ρ c main_arg3 = a3 m c from w3_kept m ρ c main_arg3 (by decide) (by decide) (by decide)]
  exact (Cert.ReferenceIdeal.RefLayer.linear1 (a0 m c) (a3 m c)).symm
theorem w4_norm : W4 m ρ c (Proc.devRef .tc main_v33) = val_main_v33 (F := Ideal) (a1 m c) (a2 m c) :=
  (W4_of_ne m ρ c main_v33 (by decide)).trans (w3_norm m ρ c)
theorem w4_rows : W4 m ρ c (Proc.devRef .tc main_v3) = val_main_v3 (F := Ideal) (a1 m c) :=
  (W4_of_ne m ρ c main_v3 (by decide)).trans (w3_rows m ρ c)
theorem w4_cols : W4 m ρ c (Proc.devRef .tc main_v6) = val_main_v6 (F := Ideal) (a1 m c) :=
  (W4_of_ne m ρ c main_v6 (by decide)).trans (w3_cols m ρ c)
theorem w4_bias1 : W4 m ρ c (Proc.devRef .tc main_arg4) = a4 m c :=
  (W4_of_ne m ρ c main_arg4 (by decide)).trans (w3_kept m ρ c main_arg4 (by decide) (by decide) (by decide))
theorem w4_weights2 : W4 m ρ c (Proc.devRef .tc main_arg5) = a5 m c :=
  (W4_of_ne m ρ c main_arg5 (by decide)).trans (w3_kept m ρ c main_arg5 (by decide) (by decide) (by decide))
theorem w4_bias2 : W4 m ρ c (Proc.devRef .tc main_arg6) = a6 m c :=
  (W4_of_ne m ρ c main_arg6 (by decide)).trans (w3_kept m ρ c main_arg6 (by decide) (by decide) (by decide))

/-! ## After the first aggregation's stretch -/

theorem w5_aggregate : W5 m ρ c (Proc.devRef .tc main_v47)
    = val_main_v47 (F := Ideal) (a0 m c) (a1 m c) (a2 m c) (a3 m c) :=
  Stages.aggregate1 (W4 m ρ c) (a0 m c) (a1 m c) (a2 m c) (a3 m c) (w4_linear m ρ c) (w4_norm m ρ c) (w4_rows m ρ c) (w4_cols m ρ c)
theorem w5_biasRow : W5 m ρ c (Proc.devRef .tc main_v48) = shapeCast S1x64 (a4 m c) shapeCasts_S64_S1x64 :=
  Stages.biasRow1 (W4 m ρ c) (a4 m c) (w4_bias1 m ρ c)
theorem w5_norm : W5 m ρ c (Proc.devRef .tc main_v33) = val_main_v33 (F := Ideal) (a1 m c) (a2 m c) :=
  (Keeps.keep1 (W4 m ρ c) main_v33 (by decide)).trans (w4_norm m ρ c)
theorem w5_rows : W5 m ρ c (Proc.devRef .tc main_v3) = val_main_v3 (F := Ideal) (a1 m c) :=
  (Keeps.keep1 (W4 m ρ c) main_v3 (by decide)).trans (w4_rows m ρ c)
theorem w5_cols : W5 m ρ c (Proc.devRef .tc main_v6) = val_main_v6 (F := Ideal) (a1 m c) :=
  (Keeps.keep1 (W4 m ρ c) main_v6 (by decide)).trans (w4_cols m ρ c)
theorem w5_weights2 : W5 m ρ c (Proc.devRef .tc main_arg5) = a5 m c :=
  (Keeps.keep1 (W4 m ρ c) main_arg5 (by decide)).trans (w4_weights2 m ρ c)
theorem w5_bias2 : W5 m ρ c (Proc.devRef .tc main_arg6) = a6 m c :=
  (Keeps.keep1 (W4 m ρ c) main_arg6 (by decide)).trans (w4_bias2 m ρ c)

/-! ## After the first bias and clamp -/

theorem w6_layer1 : W6 m ρ c (Proc.devRef .tc main_v49)
    = val_main_v51 (F := Ideal) (a0 m c) (a1 m c) (a2 m c) (a3 m c) (a4 m c) := by
  refine (W6_arr m ρ c 2).trans ((Region1.array_eq (V5 m ρ) c).trans ?_)
  rw [show V5 m ρ c main_v47 = _ from w5_aggregate m ρ c, show V5 m ρ c main_v48 = _ from w5_biasRow m ρ c]
  exact (Cert.ReferenceIdeal.RefLayer.biasRelu1 (a0 m c) (a1 m c) (a2 m c) (a3 m c) (a4 m c) shapeCasts_S64_S1x64).symm
theorem w6_norm : W6 m ρ c (Proc.devRef .tc main_v33) = val_main_v33 (F := Ideal) (a1 m c) (a2 m c) :=
  (W6_of_ne m ρ c main_v33 (by decide)).trans (w5_norm m ρ c)
theorem w6_rows : W6 m ρ c (Proc.devRef .tc main_v3) = val_main_v3 (F := Ideal) (a1 m c) :=
  (W6_of_ne m ρ c main_v3 (by decide)).trans (w5_rows m ρ c)
theorem w6_cols : W6 m ρ c (Proc.devRef .tc main_v6) = val_main_v6 (F := Ideal) (a1 m c) :=
  (W6_of_ne m ρ c main_v6 (by decide)).trans (w5_cols m ρ c)
theorem w6_weights2 : W6 m ρ c (Proc.devRef .tc main_arg5) = a5 m c :=
  (W6_of_ne m ρ c main_arg5 (by decide)).trans (w5_weights2 m ρ c)
theorem w6_bias2 : W6 m ρ c (Proc.devRef .tc main_arg6) = a6 m c :=
  (W6_of_ne m ρ c main_arg6 (by decide)).trans (w5_bias2 m ρ c)

/-! ## After the second dense transform -/

theorem w7_linear : W7 m ρ c (Proc.devRef .tc main_v50)
    = val_main_v52 (F := Ideal) (a0 m c) (a1 m c) (a2 m c) (a3 m c) (a4 m c) (a5 m c) := by
  refine (W7_arr m ρ c 2).trans ((Region2.array_eq (V6 m ρ) c).trans ?_)
  rw [show V6 m ρ c main_v49 = _ from w6_layer1 m ρ c, show V6 m ρ c main_arg5 = _ from w6_weights2 m ρ c]
  exact (Cert.ReferenceIdeal.RefLayer.linear2 (a0 m c) (a1 m c) (a2 m c) (a3 m c) (a4 m c) (a5 m c)).symm
theorem w7_norm : W7 m ρ c (Proc.devRef .tc main_v33) = val_main_v33 (F := Ideal) (a1 m c) (a2 m c) :=
  (W7_of_ne m ρ c main_v33 (by decide)).trans (w6_norm m ρ c)
theorem w7_rows : W7 m ρ c (Proc.devRef .tc main_v3) = val_main_v3 (F := Ideal) (a1 m c) :=
  (W7_of_ne m ρ c main_v3 (by decide)).trans (w6_rows m ρ c)
theorem w7_cols : W7 m ρ c (Proc.devRef .tc main_v6) = val_main_v6 (F := Ideal) (a1 m c) :=
  (W7_of_ne m ρ c main_v6 (by decide)).trans (w6_cols m ρ c)
theorem w7_bias2 : W7 m ρ c (Proc.devRef .tc main_arg6) = a6 m c :=
  (W7_of_ne m ρ c main_arg6 (by decide)).trans (w6_bias2 m ρ c)

/-! ## After the second aggregation's stretch -/

theorem w8_aggregate : W8 m ρ c (Proc.devRef .tc main_v63)
    = val_main_v65 (F := Ideal) (a0 m c) (a1 m c) (a2 m c) (a3 m c) (a4 m c) (a5 m c) :=
  Stages.aggregate2 (W7 m ρ c) (a0 m c) (a1 m c) (a2 m c) (a3 m c) (a4 m c) (a5 m c)
    (w7_linear m ρ c) (w7_norm m ρ c) (w7_rows m ρ c) (w7_cols m ρ c)
theorem w8_biasRow : W8 m ρ c (Proc.devRef .tc main_v64) = shapeCast S1x64 (a6 m c) shapeCasts_S64_S1x64 :=
  Stages.biasRow2 (W7 m ρ c) (a6 m c) (w7_bias2 m ρ c)

/-! ## The result -/

/-- After the second bias and clamp the result buffer holds the reference's result of the seven argument arrays. -/
theorem result : W9 m ρ c (Proc.devRef .tc main_v65)
    = val_main_v69 (F := Ideal) (a0 m c) (a1 m c) (a2 m c) (a3 m c) (a4 m c) (a5 m c) (a6 m c) := by
  refine (W9_arr m ρ c 2).trans ((Region3.array_eq (V8 m ρ) c).trans ?_)
  rw [show V8 m ρ c main_v63 = _ from w8_aggregate m ρ c, show V8 m ρ c main_v64 = _ from w8_biasRow m ρ c]
  exact (Cert.ReferenceIdeal.RefLayer.biasRelu2 (a0 m c) (a1 m c) (a2 m c) (a3 m c) (a4 m c) (a5 m c) (a6 m c) shapeCasts_S64_S1x64).symm

end Cert.KernelIdeal.Chain

end
-- ==== Proof.lean ====
/-
  Two stacked graph-convolution layers: the kernel against its reference, over the extended reals.

  Both programs compute, from node features x, an edge list with weights, and two layers' weights and biases,
      layer(h, W, b) = max (A (h · W) + b, 0)        result = layer (layer (x, W₁, b₁), W₂, b₂)
  where A gathers each edge's source row, scales it by the edge's symmetric normalisation (inverse square roots of the
  weighted degrees at both ends, self loops included) and adds it onto the edge's target row. The reference does all of
  it with host operations. The kernel runs the same host operations for the edge lists, the normalisation and the two
  aggregations, and computes the two dense pieces of each layer on the TensorCore, fifty blocks of 2000 node rows at a
  time: h · W by a matrix product of each block of rows with the whole weight matrix into a zero accumulator (its
  operands narrowed to bf16 first, which changes nothing over the extended reals), and the bias add with the clamp
  block by block with the bias as one row.

  Why the two agree: every entry of a matrix product sums over the full contracted axis whichever block of rows it
  sits in, so the blockwise product IS the product, entry by entry, with no sum regrouped; the bias add and the clamp
  are entrywise; and everything else is the same operation applied to the same operands. No law of the extended reals
  that could fail at an infinity (no distributivity, no cancellation) is used, so the precondition that the inputs be
  finite is never opened.

  The three frames: the two kernel programs' by their launch over the nine segments of @main; the reference's by its
  run with the result dropped. The idealization rewrote no operation, so `preserves` has nothing to state.
-/
import proofs.«115703_j90512140796730_1_alg».proof.Defs
import proofs.«115703_j90512140796730_1_alg».proof.Proof.Gen.Kernel
import proofs.«115703_j90512140796730_1_alg».proof.Proof.Gen.Kernel.Frame
import proofs.«115703_j90512140796730_1_alg».proof.Proof.Gen.KernelIdeal
import proofs.«115703_j90512140796730_1_alg».proof.Proof.Gen.KernelIdeal.Frame
import proofs.«115703_j90512140796730_1_alg».proof.Proof.Gen.ReferenceIdeal
import proofs.«115703_j90512140796730_1_alg».proof.Proof.Gen.Pre_finite_inputs
import proofs.«115703_j90512140796730_1_alg».proof.Proof.Gen.ReferenceIdeal.Run
import proofs.«115703_j90512140796730_1_alg».proof.Proof.Gen.ReferenceIdeal.Read
import proofs.«115703_j90512140796730_1_alg».proof.Proof.RunNamed
import proofs.«115703_j90512140796730_1_alg».proof.Proof.Chain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments both programs end with the reference's two-layer function of
    them in the result array: the kernel by the chain of its nine boundaries, the reference by its run. -/
theorem algebraic : Cert.algebraic_KernelIdeal_ReferenceIdeal := by
  intro m ρ m' ρ' _ hagree
  refine ⟨fun c => Cert.ReferenceIdeal.Read.val_main_v69 (F := Ideal) (Cert.KernelIdeal.Chain.a0 m c)
      (Cert.KernelIdeal.Chain.a1 m c) (Cert.KernelIdeal.Chain.a2 m c) (Cert.KernelIdeal.Chain.a3 m c)
      (Cert.KernelIdeal.Chain.a4 m c) (Cert.KernelIdeal.Chain.a5 m c) (Cert.KernelIdeal.Chain.a6 m c), ?_, ?_⟩
  · exact (θ_run Cert.KernelIdeal.defs _ _).mono
      (fun r h c => ⟨(h c).1.trans (Cert.KernelIdeal.Chain.result m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v69_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
